-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S2x1024 : Shape := ⟨2, ![2, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8x4096x1024 .f32) (main_arg2 : FVec F S2x1024 .f32) (main_arg3 : FVec F S2x1024 .f32) (main_arg4 : FVec F S1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S2x1024 .f32 := Host.absf main_arg3
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg4 main_arg5 main_v13 main_v16
-- ==== Kernel.lean ====
abbrev S8x4096x1024 : Shape := ⟨3, ![8, 4096, 1024]⟩
abbrev S2x1024 : Shape := ⟨2, ![2, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S2x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2x1024_S2x1024_0_0 : ∀ a, (![0, 0] : Fin 2 → Nat) a + S2x1024.size a ≤ S2x1024.size a
  h_S2x1024 : 0 < S2x1024.numel
  slices_S2x1024_o0_0_S1x1024 : S2x1024.Slices ![0, 0] S1x1024
  slices_S2x1024_o1_0_S1x1024 : S2x1024.Slices ![1, 0] S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x1024.size a
  hwx0_3 : ∀ i : grid0.Coords, EltTy.bits .f32 = 32 ∨ (Rect.block (s := S2x1024) S2x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S2x1024 : Shape := ⟨2, ![2, 1024]⟩
abbrev S1024 : Shape := ⟨1, ![1024]⟩
abbrev S8x4096x2 : Shape := ⟨3, ![8, 4096, 2]⟩
abbrev S_ : Shape := ⟨0, ![]⟩
abbrev S8x4096x1 : Shape := ⟨3, ![8, 4096, 1]⟩
abbrev S8x4096 : Shape := ⟨2, ![8, 4096]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S2x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S8x4096x2, .f32⟩
  | .hbm, ⟨7, _⟩ => ⟨S8x4096x2, .f32⟩
  | .hbm, ⟨8, _⟩ => ⟨S8x4096x2, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S_S8x4096x2 : S_.BroadcastsInDim S8x4096x2 (![] : Fin 0 → Fin S8x4096x2.rank)
  slices_S8x4096x2_S8x4096x1_0_0_0 : S8x4096x2.Slices ![0, 0, 0] S8x4096x1
  slices_S8x4096x2_S8x4096x1_0_0_1 : S8x4096x2.Slices ![0, 0, 1] S8x4096x1
  bcast_S8x4096x1_S8x4096x1024_0_1_2 : S8x4096x1.BroadcastsInDim S8x4096x1024 (![0, 1, 2] : Fin 3 → Fin S8x4096x1024.rank)
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S2x1024_S8x4096x2_2_1_01_0_n_n_wf : DotDims.WF S8x4096x1024 S2x1024 S8x4096x2 [2] [1] [0, 1] [0] [] []

variable [Facts₀]

def dot_S8x4096x1024_S2x1024_S8x4096x2_2_1_01_0_n_n : DotDims S8x4096x1024 S2x1024 S8x4096x2 where
  lhsContracting := [2]
  rhsContracting := [1]
  lhsNonContracting := [0, 1]
  rhsNonContracting := [0]
  lhsBatch := []
  rhsBatch := []
  wf := dot_S8x4096x1024_S2x1024_S8x4096x2_2_1_01_0_n_n_wf

class Facts : Prop extends Facts₀ where

variable [Facts]
-- ==== Proof.Spec.lean ====
/-
  The mathematics of the two programs, stated once over plain rows of extended reals.

  A token is a pair of rows a, b of 1024 entries.  Two gate logits are the sums  Σ a·u + Σ b·v  against two pairs
  of weight rows; each gate is the logistic function of its logit; the fused row is the gated sum of a and b; and
  the result is the layer normalisation of the fused row (mean and variance over the 1024 entries, the variance
  shifted by a small constant, the reciprocal square root), scaled and shifted entry by entry.

  One program forms the fused row as  (1 + s0)·a + (1 + s1)·b,  the other as  ((a + b) + s0·a) + s1·b;  one spells
  the gate as the logistic function, the other as 1 / (1 + e^(-l)).  On rows of real numbers the two agree:
  the gate is a real number for every logit, and the rest is the distributive law.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Spec

open Idealize.ShloMosaic Idealize.ShloMosaic.ValueIdx

/-- A row of 1024 extended reals. -/
abbrev Row := Fin 1024 → EReal

/-- The three constants the programs spell as bit patterns: 1, the row length 1024, and the variance shift. -/
def one : EReal := Ideal.ofBits .f32 0x3F800000#32
def cnt : EReal := Ideal.ofBits .f32 0x44800000#32
def eps : EReal := Ideal.ofBits .f32 0x3727C5AC#32

theorem one_eq : one = 1 := IdealRules.sign_bit.ideal_onePat .f32

/-- A gate logit: the two rows against a pair of weight rows. -/
def logit (a b u v : Row) : EReal := (∑ k, a k * u k) + (∑ k, b k * v k)

/-- The gate as the quotient 1 / (1 + e^(-l)) with the literal one. -/
def gateQ (l : EReal) : EReal := Ideal.div one (one + Ideal.exp (-l))

theorem gateQ_eq (l : EReal) : gateQ l = Ideal.logistic l := by
  unfold gateQ Ideal.logistic
  rw [one_eq]

/-- The logistic function of any extended real is a real number. -/
theorem logistic_real (l : EReal) : ∃ s : ℝ, Ideal.logistic l = (s : EReal) := by
  induction l using EReal.rec with
  | bot => exact ⟨0, by rw [Ideal.logistic_bot]; rfl⟩
  | coe r => exact ⟨_, Ideal.logistic_coe r⟩
  | top => exact ⟨1, by rw [Ideal.logistic_top]; rfl⟩

/-- The fused row, gate factors first. -/
def fuseK (a b : Row) (s0 s1 : EReal) : Row := fun q => (one + s0) * a q + (one + s1) * b q
/-- The fused row, as a sum of four terms. -/
def fuseR (a b : Row) (s0 s1 : EReal) : Row := fun q => ((a q + b q) + s0 * a q) + s1 * b q

/-- On real rows and real gates the two fused rows are one. -/
theorem fuse_eq (a b : Row) (s0 s1 : EReal) (ha : ∀ q, ∃ r : ℝ, a q = (r : EReal)) (hb : ∀ q, ∃ r : ℝ, b q = (r : EReal))
    (h0 : ∃ r : ℝ, s0 = (r : EReal)) (h1 : ∃ r : ℝ, s1 = (r : EReal)) : fuseK a b s0 s1 = fuseR a b s0 s1 := by
  funext q
  obtain ⟨x, hx⟩ := ha q
  obtain ⟨y, hy⟩ := hb q
  obtain ⟨t0, ht0⟩ := h0
  obtain ⟨t1, ht1⟩ := h1
  unfold fuseK fuseR
  rw [one_eq, hx, hy, ht0, ht1]
  have e1 : ((1 : ℝ) : EReal) = 1 := rfl
  rw [← e1]
  simp only [← EReal.coe_add, ← EReal.coe_mul]
  congr 1
  ring

/-- Layer normalisation of a row f, scaled by g and shifted by be. -/
def lnorm (f g be : Row) : Row := fun q =>
  ((f q - Ideal.div (∑ k, f k) cnt)
      * Ideal.rsqrt (Ideal.div (∑ k, (f k - Ideal.div (∑ k', f k') cnt) * (f k - Ideal.div (∑ k', f k') cnt)) cnt + eps))
    * g q + be q

/-- One token's result, gates by the logistic function and the fused row gate factors first. -/
def rowK (a b u0 v0 u1 v1 g be : Row) : Row :=
  lnorm (fuseK a b (Ideal.logistic (logit a b u0 v0)) (Ideal.logistic (logit a b u1 v1))) g be
/-- One token's result, gates as quotients and the fused row as a sum of four terms. -/
def rowR (a b u0 v0 u1 v1 g be : Row) : Row :=
  lnorm (fuseR a b (gateQ (logit a b u0 v0)) (gateQ (logit a b u1 v1))) g be

theorem row_eq (a b u0 v0 u1 v1 g be : Row) (ha : ∀ q, ∃ r : ℝ, a q = (r : EReal)) (hb : ∀ q, ∃ r : ℝ, b q = (r : EReal)) :
    rowR a b u0 v0 u1 v1 g be = rowK a b u0 v0 u1 v1 g be := by
  unfold rowR rowK
  rw [gateQ_eq, gateQ_eq, fuse_eq a b _ _ ha hb (logistic_real _) (logistic_real _)]

/-! ## Whole arrays -/

abbrev S3 : Shape := ⟨3, ![8, 4096, 1024]⟩
abbrev SW : Shape := ⟨2, ![2, 1024]⟩
abbrev SV : Shape := ⟨1, ![1024]⟩
abbrev S2 : Shape := ⟨2, ![32768, 1024]⟩
abbrev SR : Shape := ⟨2, ![1, 1024]⟩

/-- Row (b, t) of a [8, 4096, 1024] array. -/
def row3 (X : S3.Idx → EReal) (b : Fin 8) (t : Fin 4096) : Row := fun k => X (ix3 b t k)
/-- Row r of a two-dimensional array. -/
def row2 {n : Nat} (Y : (⟨2, ![n, 1024]⟩ : Shape).Idx → EReal) (r : Fin n) : Row := fun k => Y (ix2 r k)
/-- A vector of 1024 entries as a row. -/
def row1 (g : SV.Idx → EReal) : Row := fun k => g (ix1 k)

/-- The result over the [8, 4096, 1024] arrays, in the first spelling. -/
def outK (X1 X2 : S3.Idx → EReal) (W1 W2 : SW.Idx → EReal) (g be : SV.Idx → EReal) : S3.Idx → EReal := fun i =>
  rowK (row3 X1 (i 0) (i 1)) (row3 X2 (i 0) (i 1)) (row2 W1 0) (row2 W2 0) (row2 W1 1) (row2 W2 1) (row1 g) (row1 be) (i 2)
/-- The result over the [8, 4096, 1024] arrays, in the second spelling. -/
def outR (X1 X2 : S3.Idx → EReal) (W1 W2 : SW.Idx → EReal) (g be : SV.Idx → EReal) : S3.Idx → EReal := fun i =>
  rowR (row3 X1 (i 0) (i 1)) (row3 X2 (i 0) (i 1)) (row2 W1 0) (row2 W2 0) (row2 W1 1) (row2 W2 1) (row1 g) (row1 be) (i 2)

/-- Over arrays of real numbers the two spellings are one function. -/
theorem out_eq (X1 X2 : S3.Idx → EReal) (W1 W2 : SW.Idx → EReal) (g be : SV.Idx → EReal)
    (h1 : ∀ i, ∃ r : ℝ, X1 i = (r : EReal)) (h2 : ∀ i, ∃ r : ℝ, X2 i = (r : EReal)) :
    outR X1 X2 W1 W2 g be = outK X1 X2 W1 W2 g be := by
  funext i
  exact congrFun (row_eq (row3 X1 (i 0) (i 1)) (row3 X2 (i 0) (i 1)) _ _ _ _ _ _ (fun q => h1 _) (fun q => h2 _)) (i 2)

/-- The result over the arrays laid out as 32768 rows, the scale and the shift as one-row matrices. -/
def out2 (Y1 Y2 : S2.Idx → EReal) (W1 W2 : SW.Idx → EReal) (g2 be2 : SR.Idx → EReal) : S2.Idx → EReal := fun j =>
  rowK (row2 Y1 (j 0)) (row2 Y2 (j 0)) (row2 W1 0) (row2 W2 0) (row2 W1 1) (row2 W2 1) (row2 g2 0) (row2 be2 0) (j 1)

end Cert.Spec

end
-- ==== Proof.Finite.lean ====
import proofs.«145932_j19765439496515_1_alg».proof.Pre_finite_inputs
import Idealize.ShloMosaic.Lib.ReduceAll
import Idealize.ShloMosaic.Lib.ValueIdx
import Idealize.ShloMosaic.PureOps.Ideal
import Idealize.ShloMosaic.PureOps.Ideal.Laws

/-!
  From the predicate "every float input is finite" to "every entry of the first two
  arrays is a real number".  The predicate is a conjunction (by `and` on one-bit words) of six
  `all`-reductions, one per array, each of the pointwise test `|x| < +∞`.  In the extended reals
  `|x| = max x (-x)` is `+∞` exactly at the two infinities, so the strict inequality leaves the
  coercions of real numbers only.
-/

namespace Cert.Finite
open Idealize.ShloMosaic Cert.Pre_finite_inputs

/-- The binary32 pattern with all-ones exponent, zero significand and sign bit clear denotes `+∞`. -/
theorem ofBits_posInf : Ideal.ofBits .f32 0x7F800000#32 = (⊤ : EReal) := by
  simp [Ideal.ofBits, Ideal.ieee]

/-- An extended real whose absolute value `max a (-a)` lies strictly below `+∞` is a real number:
    at `⊥` the negation is `⊤`, at `⊤` the value itself is, and `⊤ < ⊤` is absurd. -/
theorem real_of_abs_lt_top (a : EReal) (h : max a (-a) < (⊤ : EReal)) : ∃ r : ℝ, a = (r : EReal) := by
  induction a using EReal.rec with
  | bot => exact absurd h (by simp)
  | coe r => exact ⟨r, rfl⟩
  | top => exact absurd h (by simp)

/-- The rank-0 shape has a single index. -/
instance : Subsingleton S_.Idx := ⟨fun a b => funext fun d => d.elim0⟩

/-- One array of any shape: if the `all`-reduction of the pointwise test `|x| < +∞` came out 1,
    every entry of `x` is a real number. -/
theorem real_of_all {s : Shape} {axes : List (Fin s.rank)} (dims : Fin S_.rank → Fin s.rank)
    (hb : S_.BroadcastsInDim s dims) (hr : s.ReducesTo axes S_) (hu : 0 < S_.numel)
    (x : FVec Ideal s .f32) (init : IVec S_ 1) (j : S_.Idx)
    (e : Host.reduce IntOp.andi
          (cmpf .olt (Host.absf x) (broadcastInDim s dims hb (constant S_ .f32 0x7F800000#32))) init hr hu j = 1#1)
    (i : s.Idx) : ∃ r : ℝ, x i = (r : EReal) := by
  have hi := Host.reduce_andi_all _ init hr hu j e i
  -- the element test, unfolded: the bit of `max (x i) (-(x i)) < ⊤`
  have hlt : max (x i) (-(x i)) < (⊤ : EReal) := by
    have h1 : Ideal.cmp .olt (max (x i) (-(x i))) (Ideal.ofBits .f32 0x7F800000#32) = 1#1 := hi
    rw [ofBits_posInf] at h1
    by_contra hn
    simp [Ideal.cmp, hn] at h1
  exact real_of_abs_lt_top (x i) hlt

variable [Cert.Pre_finite_inputs.Facts]

theorem real_of_pre (x0 x1 : FVec Ideal S8x4096x1024 .f32) (x2 x3 : FVec Ideal S2x1024 .f32) (x4 x5 : FVec Ideal S1024 .f32)
    (h : fn (F := Ideal) x0 x1 x2 x3 x4 x5 = fun _ => 1#1) :
    (∀ i, ∃ r : ℝ, x0 i = (r : EReal)) ∧ (∀ i, ∃ r : ℝ, x1 i = (r : EReal)) := by
  have h0 := congrFun h ValueIdx.ix0
  dsimp only [fn, fn_part1] at h0
  -- the word is and (and (and (and (and A0 A1) A2) A3) A4) A5; keep the innermost pair
  have h5 := (IntOp.andi_eq_one.1 h0).1
  have h4 := (IntOp.andi_eq_one.1 h5).1
  have h3 := (IntOp.andi_eq_one.1 h4).1
  have h2 := (IntOp.andi_eq_one.1 h3).1
  obtain ⟨hA0, hA1⟩ := IntOp.andi_eq_one.1 h2
  exact ⟨fun i => real_of_all _ _ _ _ x0 _ _ hA0 i, fun i => real_of_all _ _ _ _ x1 _ _ hA1 i⟩

end Cert.Finite
-- ==== Proof.RefSide.lean ====
/-
  The reference program, read at an index, is the specification function.

  The program is a chain of whole-array operations.  Read at an index (b, t, q) each stage is one expression in the
  rows (b, t) of the two inputs: the two logits, the two gates as quotients, the fused row as a sum of four terms,
  the mean of the fused row, the centred row, the variance, the reciprocal square root of the shifted variance, and
  the scaled and shifted result.  Each stage below is stated at explicit coordinates, and the stages are chained.
-/
import proofs.«145932_j19765439496515_1_alg».proof.Proof.Gen.ReferenceIdeal.Read
import proofs.«145932_j19765439496515_1_alg».proof.Proof.Spec

noncomputable section

open scoped BigOperators

namespace Cert.RefSide

open Idealize.ShloMosaic Idealize.ShloMosaic.ValueIdx Cert.ReferenceIdeal Cert.ReferenceIdeal.Read

variable (X1 X2 : (⟨S8x4096x1024, .f32⟩ : BufTy).Contents (Elt Ideal)) (W1 W2 : (⟨S2x1024, .f32⟩ : BufTy).Contents (Elt Ideal))
  (g be : (⟨S1024, .f32⟩ : BufTy).Contents (Elt Ideal))

/-! ## The logits -/

/-- The logit of gate c at token (b, t): the two contractions over the 1024 entries, added. -/
theorem v2_at (b : Fin 8) (t : Fin 4096) (c : Fin 2) :
    val_main_v2 (F := Ideal) X1 X2 W1 W2 (ix3 b t c)
      = Cert.Spec.logit (Cert.Spec.row3 X1 b t) (Cert.Spec.row3 X2 b t) (Cert.Spec.row2 W1 c) (Cert.Spec.row2 W2 c) := by
  have el0 : ∀ k : Fin 1024, lidx_main_v0 (ix3 b t c) k = ix3 b t k := fun k =>
    funext fun a => Fin.ext (by match a with | ⟨0, _⟩ => rfl | ⟨1, _⟩ => rfl | ⟨2, _⟩ => rfl)
  have er0 : ∀ k : Fin 1024, ridx_main_v0 (ix3 b t c) k = ix2 c k := fun k =>
    funext fun a => Fin.ext (by match a with | ⟨0, _⟩ => rfl | ⟨1, _⟩ => rfl)
  have el1 : ∀ k : Fin 1024, lidx_main_v1 (ix3 b t c) k = ix3 b t k := fun k =>
    funext fun a => Fin.ext (by match a with | ⟨0, _⟩ => rfl | ⟨1, _⟩ => rfl | ⟨2, _⟩ => rfl)
  have er1 : ∀ k : Fin 1024, ridx_main_v1 (ix3 b t c) k = ix2 c k := fun k =>
    funext fun a => Fin.ext (by match a with | ⟨0, _⟩ => rfl | ⟨1, _⟩ => rfl)
  rw [val_main_v2_apply, val_main_v0_apply, val_main_v1_apply, Ideal.addf_def]
  simp only [el0, er0, el1, er1]
  rfl

/-! ## The gates -/

/-- The gate c at token (b, t): the quotient 1 / (1 + e^(-l)) of its logit l. -/
theorem v8_at (b : Fin 8) (t : Fin 4096) (c : Fin 2) :
    val_main_v8 (F := Ideal) X1 X2 W1 W2 (ix3 b t c)
      = Cert.Spec.gateQ (Cert.Spec.logit (Cert.Spec.row3 X1 b t) (Cert.Spec.row3 X2 b t) (Cert.Spec.row2 W1 c) (Cert.Spec.row2 W2 c)) := by
  rw [val_main_v8_apply, val_main_v7_apply, val_main_cst_0_apply, val_main_v6_apply, val_main_v5_apply, val_main_cst_apply,
    val_main_v4_apply, val_main_v3_apply, v2_at]
  simp only [Ideal.hostDivf_def, Ideal.addf_def, Ideal.hostUnary_exp_def, Ideal.hostNegf_def, Ideal.negf_def, Ideal.ofBits_def]
  rfl

/-! ## The fused row -/

/-- The fused row of token (b, t) at entry q: the sum of the two inputs and of each input scaled by its gate. -/
theorem v17_at (b : Fin 8) (t : Fin 4096) (q : Fin 1024) :
    val_main_v17 (F := Ideal) X1 X2 W1 W2 (ix3 b t q) = (Cert.Spec.fuseR (Cert.Spec.row3 X1 b t) (Cert.Spec.row3 X2 b t) (Cert.Spec.gateQ (Cert.Spec.logit (Cert.Spec.row3 X1 b t) (Cert.Spec.row3 X2 b t) (Cert.Spec.row2 W1 0) (Cert.Spec.row2 W2 0))) (Cert.Spec.gateQ (Cert.Spec.logit (Cert.Spec.row3 X1 b t) (Cert.Spec.row3 X2 b t) (Cert.Spec.row2 W1 1) (Cert.Spec.row2 W2 1)))) q := by
  have e12 : idx_main_v12 (ix3 b t q) = ix3 b t (0 : Fin 1) := funext fun a => Fin.ext (by match a with | ⟨0, _⟩ => rfl | ⟨1, _⟩ => rfl | ⟨2, _⟩ => rfl)
  have e9 : idx_main_v9 (ix3 b t (0 : Fin 1)) = ix3 b t (0 : Fin 2) := funext fun a => Fin.ext (by match a with | ⟨0, _⟩ => rfl | ⟨1, _⟩ => rfl | ⟨2, _⟩ => rfl)
  have e15 : idx_main_v15 (ix3 b t q) = ix3 b t (0 : Fin 1) := funext fun a => Fin.ext (by match a with | ⟨0, _⟩ => rfl | ⟨1, _⟩ => rfl | ⟨2, _⟩ => rfl)
  have e10 : idx_main_v10 (ix3 b t (0 : Fin 1)) = ix3 b t (1 : Fin 2) := funext fun a => Fin.ext (by match a with | ⟨0, _⟩ => rfl | ⟨1, _⟩ => rfl | ⟨2, _⟩ => rfl)
  rw [val_main_v17_apply, val_main_v14_apply, val_main_v11_apply, val_main_v13_apply, val_main_v12_apply, e12,
    val_main_v9_apply, e9, v8_at, val_main_v16_apply, val_main_v15_apply, e15, val_main_v10_apply, e10, v8_at]
  simp only [Ideal.addf_def, Ideal.mulf_def]
  rfl

/-! ## The layer normalisation -/

/-- The fused row of token (b, t), in the specification's words. -/
abbrev fused (b : Fin 8) (t : Fin 4096) : Cert.Spec.Row :=
  Cert.Spec.fuseR (Cert.Spec.row3 X1 b t) (Cert.Spec.row3 X2 b t)
    (Cert.Spec.gateQ (Cert.Spec.logit (Cert.Spec.row3 X1 b t) (Cert.Spec.row3 X2 b t) (Cert.Spec.row2 W1 0) (Cert.Spec.row2 W2 0)))
    (Cert.Spec.gateQ (Cert.Spec.logit (Cert.Spec.row3 X1 b t) (Cert.Spec.row3 X2 b t) (Cert.Spec.row2 W1 1) (Cert.Spec.row2 W2 1)))

/-- The mean of the fused row of token (b, t): its sum over the 1024 entries (the sum starts from zero), divided
    by the row length. -/
theorem v21_at (b : Fin 8) (t : Fin 4096) (z : Fin 1) :
    val_main_v21 (F := Ideal) X1 X2 W1 W2 (ix3 b t z) = Ideal.div (∑ k, fused X1 X2 W1 W2 b t k) Cert.Spec.cnt := by
  have e18 : ∀ k : Fin 1024, idx_main_v18 (idx_main_v19 (ix3 b t z)) k = ix3 b t k := fun k => funext fun a => Fin.ext (by match a with | ⟨0, _⟩ => rfl | ⟨1, _⟩ => rfl | ⟨2, _⟩ => rfl)
  rw [val_main_v21_apply, val_main_v19_apply, val_main_v18_apply, val_main_cst_1_apply, val_main_v20_apply, val_main_cst_2_apply]
  simp only [e18, v17_at, Ideal.hostDivf_def, Ideal.ofBits_def, Ideal.ofBits_zero_f32, zero_add]
  rfl

/-- The centred fused row at entry q (the program forms it twice; this is the first). -/
theorem v23_at (b : Fin 8) (t : Fin 4096) (q : Fin 1024) :
    val_main_v23 (F := Ideal) X1 X2 W1 W2 (ix3 b t q)
      = fused X1 X2 W1 W2 b t q - Ideal.div (∑ k, fused X1 X2 W1 W2 b t k) Cert.Spec.cnt := by
  have e22 : idx_main_v22 (ix3 b t q) = ix3 b t (0 : Fin 1) := funext fun a => Fin.ext (by match a with | ⟨0, _⟩ => rfl | ⟨1, _⟩ => rfl | ⟨2, _⟩ => rfl)
  rw [val_main_v23_apply, v17_at, val_main_v22_apply, e22, v21_at, Ideal.subf_def]

/-- The centred fused row at entry q, the second time. -/
theorem v30_at (b : Fin 8) (t : Fin 4096) (q : Fin 1024) :
    val_main_v30 (F := Ideal) X1 X2 W1 W2 (ix3 b t q)
      = fused X1 X2 W1 W2 b t q - Ideal.div (∑ k, fused X1 X2 W1 W2 b t k) Cert.Spec.cnt := by
  have e29 : idx_main_v29 (ix3 b t q) = ix3 b t (0 : Fin 1) := funext fun a => Fin.ext (by match a with | ⟨0, _⟩ => rfl | ⟨1, _⟩ => rfl | ⟨2, _⟩ => rfl)
  rw [val_main_v30_apply, v17_at, val_main_v29_apply, e29, v21_at, Ideal.subf_def]

/-- The variance of the fused row of token (b, t): the sum of the squared centred entries, divided by the row length. -/
theorem v28_at (b : Fin 8) (t : Fin 4096) (z : Fin 1) :
    val_main_v28 (F := Ideal) X1 X2 W1 W2 (ix3 b t z)
      = Ideal.div (∑ k, (fused X1 X2 W1 W2 b t k - Ideal.div (∑ k', fused X1 X2 W1 W2 b t k') Cert.Spec.cnt)
          * (fused X1 X2 W1 W2 b t k - Ideal.div (∑ k', fused X1 X2 W1 W2 b t k') Cert.Spec.cnt)) Cert.Spec.cnt := by
  have e25 : ∀ k : Fin 1024, idx_main_v25 (idx_main_v26 (ix3 b t z)) k = ix3 b t k := fun k => funext fun a => Fin.ext (by match a with | ⟨0, _⟩ => rfl | ⟨1, _⟩ => rfl | ⟨2, _⟩ => rfl)
  rw [val_main_v28_apply, val_main_v26_apply, val_main_v25_apply, val_main_cst_3_apply, val_main_v27_apply, val_main_cst_4_apply]
  simp only [e25, val_main_v24_apply, v23_at, Ideal.mulf_def, Ideal.hostDivf_def, Ideal.ofBits_def, Ideal.ofBits_zero_f32, zero_add]
  rfl

/-- The result at (b, t, q): the centred entry times the reciprocal square root of the shifted variance, scaled and
    shifted by the entries q of the two vectors. -/
theorem v41_at (b : Fin 8) (t : Fin 4096) (q : Fin 1024) :
    val_main_v41 (F := Ideal) X1 X2 W1 W2 g be (ix3 b t q)
      = Cert.Spec.lnorm (fused X1 X2 W1 W2 b t) (Cert.Spec.row1 g) (Cert.Spec.row1 be) q := by
  have e34 : idx_main_v34 (ix3 b t q) = ix3 b t (0 : Fin 1) := funext fun a => Fin.ext (by match a with | ⟨0, _⟩ => rfl | ⟨1, _⟩ => rfl | ⟨2, _⟩ => rfl)
  have e37 : idx_main_v36 (idx_main_v37 (ix3 b t q)) = ix1 q := funext fun a => Fin.ext (by match a with | ⟨0, _⟩ => rfl)
  have e40 : idx_main_v39 (idx_main_v40 (ix3 b t q)) = ix1 q := funext fun a => Fin.ext (by match a with | ⟨0, _⟩ => rfl)
  rw [val_main_v41_apply, val_main_v38_apply, val_main_v35_apply, v30_at, val_main_v34_apply, e34, val_main_v33_apply,
    val_main_v32_apply, v28_at, val_main_v31_apply, val_main_cst_5_apply, val_main_v37_apply, val_main_v36_apply, e37,
    val_main_v40_apply, val_main_v39_apply, e40]
  simp only [Ideal.addf_def, Ideal.mulf_def, Ideal.hostUnary_rsqrt_def, Ideal.ofBits_def]
  rfl

/-! ## The whole array -/

/-- The reference program's result is the specification function of its six arguments. -/
theorem ref_eq (X1 X2 : (⟨S8x4096x1024, .f32⟩ : BufTy).Contents (Elt Ideal)) (W1 W2 : (⟨S2x1024, .f32⟩ : BufTy).Contents (Elt Ideal))
    (g be : (⟨S1024, .f32⟩ : BufTy).Contents (Elt Ideal)) :
    val_main_v41 (F := Ideal) X1 X2 W1 W2 g be = Cert.Spec.outR X1 X2 W1 W2 g be := by
  funext i
  obtain ⟨b, t, q, rfl⟩ : ∃ b t q, i = ix3 b t q := ⟨i 0, i 1, i 2, eq_ix3 i⟩
  rw [v41_at]
  rfl

end Cert.RefSide

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«145932_j19765439496515_1_alg».proof.Proof.LibLayoutCol
import proofs.«145932_j19765439496515_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.Payload.lean ====
/-
  The kernel body's arithmetic, read at one entry of the output block.

  The body works on a block of 512 tokens: two [512, 1024] blocks x0, x1, the two [2, 1024] weight matrices x2, x3 and
  the scale and shift as [1, 1024] rows x4, x5.  At row p and column q the value it stores is the specification's
  token result for the rows p of x0 and x1: each row sum is a column [512, 1] broadcast back along the row, each
  weight row is a slice of its matrix broadcast down the 512 rows.
-/
import proofs.«145932_j19765439496515_1_alg».proof.Proof.Gen.KernelIdeal.Skeleton
import proofs.«145932_j19765439496515_1_alg».proof.Proof.Spec
import proofs.«145932_j19765439496515_1_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Payload

open Idealize.ShloMosaic Idealize.ShloMosaic.ValueIdx Cert.KernelIdeal Cert.KernelIdeal.Gen Cert.Spec Cert.Lib.ColSum

/-- Row 0 of a two-row matrix, sliced out and broadcast down 512 rows: at (p, k) the matrix at (0, k). -/
theorem wrow0_apply {α : Type} (w : (⟨2, ![2, 1024]⟩ : Shape).Idx → α)
    (hs : (⟨2, ![2, 1024]⟩ : Shape).Slices ![0, 0] ⟨2, ![1, 1024]⟩) (hb : (⟨2, ![1, 1024]⟩ : Shape).Broadcasts ⟨2, ![512, 1024]⟩)
    (p : Fin 512) (k : Fin 1024) :
    broadcastTo ⟨2, ![512, 1024]⟩ (extractStridedSlice ⟨2, ![1, 1024]⟩ ![0, 0] w hs) hb (ix2 p k) = w (ix2 (0 : Fin 2) k) := by
  rw [broadcastTo_1b_ab_apply]
  exact slice2_axis0_apply 0 w hs (0 : Fin 1) k (0 : Fin 2) rfl

/-- Row 1 likewise: at (p, k) the matrix at (1, k). -/
theorem wrow1_apply {α : Type} (w : (⟨2, ![2, 1024]⟩ : Shape).Idx → α)
    (hs : (⟨2, ![2, 1024]⟩ : Shape).Slices ![1, 0] ⟨2, ![1, 1024]⟩) (hb : (⟨2, ![1, 1024]⟩ : Shape).Broadcasts ⟨2, ![512, 1024]⟩)
    (p : Fin 512) (k : Fin 1024) :
    broadcastTo ⟨2, ![512, 1024]⟩ (extractStridedSlice ⟨2, ![1, 1024]⟩ ![1, 0] w hs) hb (ix2 p k) = w (ix2 (1 : Fin 2) k) := by
  rw [broadcastTo_1b_ab_apply]
  exact extractStridedSlice_apply ![1, 0] w hs (ix2 (0 : Fin 1) k) (ix2 (1 : Fin 2) k) (fun a => match a with
    | ⟨0, _⟩ => by show (1 : Nat) = 1 + 0; rfl
    | ⟨1, _⟩ => by show k.val = 0 + k.val; omega)

theorem logistic_apply {s : Shape} (x : FVec Ideal s .f32) (i : s.Idx) : logistic x i = Ideal.logistic (x i) := rfl
theorem rsqrt_apply {s : Shape} (x : FVec Ideal s .f32) (i : s.Idx) : rsqrt x i = Ideal.rsqrt (x i) := rfl

/-- The fused block at (p, q). -/
theorem fused_apply (x0 x1 : Vec Ideal S512x1024 .f32) (x2 x3 : Vec Ideal S2x1024 .f32) (p : Fin 512) (q : Fin 1024) :
    k0_pay2 (F := Ideal) x0 x1 x2 x3 (ix2 p q)
      = fuseK (row2 x0 p) (row2 x1 p) (Ideal.logistic (logit (row2 x0 p) (row2 x1 p) (row2 x2 0) (row2 x3 0)))
          (Ideal.logistic (logit (row2 x0 p) (row2 x1 p) (row2 x2 1) (row2 x3 1))) q := by
  unfold k0_pay2
  simp only [shapeCast_self]
  simp only [addf_apply, mulf_apply, bcastColMat_apply, broadcast_apply, logistic_apply, rowSumCol_apply (A := 512) (K := 1024),
    wrow0_apply, wrow1_apply]
  unfold fuseK logit row2 one
  rfl

/-- The mean column at (p, 0): the fused row's sum over its length. -/
theorem mean_apply (x0 x1 : Vec Ideal S512x1024 .f32) (x2 x3 : Vec Ideal S2x1024 .f32) (p : Fin 512) (z : Fin 1) :
    k0_pay3 (F := Ideal) x0 x1 x2 x3 (ix2 p z) = Ideal.div (∑ k : Fin 1024, k0_pay2 (F := Ideal) x0 x1 x2 x3 (ix2 p k)) cnt := by
  unfold k0_pay3
  simp only [divf_apply, broadcast_apply, rowSumCol_apply (A := 512) (K := 1024)]
  unfold cnt
  rfl

/-- The normalisation of a block f against a mean column mu, scaled and shifted by one-row matrices, at (p, q). -/
theorem norm_apply (f : FVec Ideal S512x1024 .f32) (mu : FVec Ideal S512x1 .f32) (g be : Vec Ideal S1x1024 .f32) (p : Fin 512) (q : Fin 1024) :
    k0_pay1 (F := Ideal) f mu g be (ix2 p q)
      = ((f (ix2 p q) - mu (ix2 p 0))
          * Ideal.rsqrt (Ideal.div (∑ k : Fin 1024, (f (ix2 p k) - mu (ix2 p 0)) * (f (ix2 p k) - mu (ix2 p 0))) cnt + eps))
        * g (ix2 0 q) + be (ix2 0 q) := by
  unfold k0_pay1
  simp only [shapeCast_self]
  simp only [addf_apply, mulf_apply, subf_apply, divf_apply, rsqrt_apply, bcastColMat_apply, broadcast_apply,
    rowSumCol_apply (A := 512) (K := 1024), broadcastTo_1b_ab_apply]
  unfold cnt eps
  rfl

/-- The stored value at (p, q) is the token result of rows p. -/
theorem pay_apply (x0 x1 : Vec Ideal S512x1024 .f32) (x2 x3 : Vec Ideal S2x1024 .f32) (x4 x5 : Vec Ideal S1x1024 .f32)
    (p : Fin 512) (q : Fin 1024) :
    k0_pay1 (F := Ideal) (k0_pay2 x0 x1 x2 x3) (k0_pay3 x0 x1 x2 x3) x4 x5 (ix2 p q)
      = rowK (row2 x0 p) (row2 x1 p) (row2 x2 0) (row2 x3 0) (row2 x2 1) (row2 x3 1) (row2 x4 0) (row2 x5 0) q := by
  rw [norm_apply]
  simp only [mean_apply, fused_apply]
  unfold rowK lnorm
  rfl

end Cert.Payload

end
-- ==== Proof.Blocks.lean ====
/-
  From the blocks to the array: what the result window's array holds after the run.

  The grid has 64 points; point t handles rows 512·t … 512·t + 511 of the [32768, 1024] arrays, the two weight
  matrices and the scale and shift rows being the same whole blocks at every point.  What point t writes back is block t
  of ONE function of the arrays as the region finds them (each token's result depends only on its own row), and
  the 64 blocks cover the result array.
-/
import proofs.«145932_j19765439496515_1_alg».proof.Proof.Gen.KernelIdeal.Frame
import proofs.«145932_j19765439496515_1_alg».proof.Proof.Payload
import proofs.«145932_j19765439496515_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen Cert.Spec

variable (m : (ℓ : Loc nD τ sig) → Buf (Elt Ideal) ℓ)

theorem hz : (![0, 0] : Fin 2 → Nat) = fun _ => 0 := funext fun a => by fin_cases a <;> rfl

/-- The block index of every window at every point: the two token arrays and the result move down with the point,
    the other four stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the first token block at point t is row 512·t + p of the array. -/
theorem blk0_row (c : Dev nD) (t : Fin cfg0.N) (p : Fin 512) (r : Fin 32768) (hr : r.val = t.val * 512 + p.val) :
    row2 (iblk m c 0 t : Vec Ideal S512x1024 .f32) p = row2 (V m c main_v0 : S32768x1024.Idx → EReal) r := by
  obtain ⟨e0, e1, -⟩ := idx_facts t
  funext k
  unfold row2 iblk
  rw [View.read_apply]
  show V m c main_v0 _ = V m c main_v0 _
  congr 1
  funext a
  apply Fin.ext
  match a with
  | ⟨0, _⟩ => show win0_0.index t 0 * 512 + 1 * p.val = r.val; rw [e0, hr]; omega
  | ⟨1, _⟩ => show win0_0.index t 1 * 1024 + 1 * k.val = k.val; rw [e1]; omega

/-- Row p of the second token block at point t is row 512·t + p of the array. -/
theorem blk1_row (c : Dev nD) (t : Fin cfg0.N) (p : Fin 512) (r : Fin 32768) (hr : r.val = t.val * 512 + p.val) :
    row2 (iblk m c 1 t : Vec Ideal S512x1024 .f32) p = row2 (V m c main_v1 : S32768x1024.Idx → EReal) r := by
  obtain ⟨-, -, e0, e1, -⟩ := idx_facts t
  funext k
  unfold row2 iblk
  rw [View.read_apply]
  show V m c main_v1 _ = V m c main_v1 _
  congr 1
  funext a
  apply Fin.ext
  match a with
  | ⟨0, _⟩ => show win0_1.index t 0 * 512 + 1 * p.val = r.val; rw [e0, hr]; omega
  | ⟨1, _⟩ => show win0_1.index t 1 * 1024 + 1 * k.val = k.val; rw [e1]; omega

/-- The first weight block is the whole matrix. -/
theorem blk2_row (c : Dev nD) (t : Fin cfg0.N) (r : Fin 2) :
    row2 (iblk m c 2 t : Vec Ideal S2x1024 .f32) r = row2 (V m c main_arg2 : S2x1024.Idx → EReal) r := by
  obtain ⟨-, -, -, -, e0, e1, -⟩ := idx_facts t
  funext k
  unfold row2 iblk
  rw [View.read_apply]
  show V m c main_arg2 _ = V m c main_arg2 _
  congr 1
  funext a
  apply Fin.ext
  match a with
  | ⟨0, _⟩ => show win0_2.index t 0 * 2 + 1 * r.val = r.val; rw [e0]; omega
  | ⟨1, _⟩ => show win0_2.index t 1 * 1024 + 1 * k.val = k.val; rw [e1]; omega

/-- The second weight block is the whole matrix. -/
theorem blk3_row (c : Dev nD) (t : Fin cfg0.N) (r : Fin 2) :
    row2 (iblk m c 3 t : Vec Ideal S2x1024 .f32) r = row2 (V m c main_arg3 : S2x1024.Idx → EReal) r := by
  obtain ⟨-, -, -, -, -, -, e0, e1, -⟩ := idx_facts t
  funext k
  unfold row2 iblk
  rw [View.read_apply]
  show V m c main_arg3 _ = V m c main_arg3 _
  congr 1
  funext a
  apply Fin.ext
  match a with
  | ⟨0, _⟩ => show win0_3.index t 0 * 2 + 1 * r.val = r.val; rw [e0]; omega
  | ⟨1, _⟩ => show win0_3.index t 1 * 1024 + 1 * k.val = k.val; rw [e1]; omega

/-- The scale block is the whole one-row matrix. -/
theorem blk4_row (c : Dev nD) (t : Fin cfg0.N) (z : Fin 1) :
    row2 (iblk m c 4 t : Vec Ideal S1x1024 .f32) z = row2 (V m c main_v2 : S1x1024.Idx → EReal) z := by
  obtain ⟨-, -, -, -, -, -, -, -, e0, e1, -⟩ := idx_facts t
  funext k
  unfold row2 iblk
  rw [View.read_apply]
  show V m c main_v2 _ = V m c main_v2 _
  congr 1
  funext a
  apply Fin.ext
  match a with
  | ⟨0, _⟩ => show win0_4.index t 0 * 1 + 1 * z.val = z.val; rw [e0]; omega
  | ⟨1, _⟩ => show win0_4.index t 1 * 1024 + 1 * k.val = k.val; rw [e1]; omega

/-- The shift block is the whole one-row matrix. -/
theorem blk5_row (c : Dev nD) (t : Fin cfg0.N) (z : Fin 1) :
    row2 (iblk m c 5 t : Vec Ideal S1x1024 .f32) z = row2 (V m c main_v3 : S1x1024.Idx → EReal) z := by
  obtain ⟨-, -, -, -, -, -, -, -, -, -, e0, e1, -⟩ := idx_facts t
  funext k
  unfold row2 iblk
  rw [View.read_apply]
  show V m c main_v3 _ = V m c main_v3 _
  congr 1
  funext a
  apply Fin.ext
  match a with
  | ⟨0, _⟩ => show win0_5.index t 0 * 1 + 1 * z.val = z.val; rw [e0]; omega
  | ⟨1, _⟩ => show win0_5.index t 1 * 1024 + 1 * k.val = k.val; rw [e1]; omega

/-- The result array as one function of the arrays the region finds. -/
abbrev G (c : Dev nD) : S32768x1024.Idx → EReal :=
  out2 (V m c main_v0) (V m c main_v1) (V m c main_arg2) (V m c main_arg3) (V m c main_v2) (V m c main_v3)

/-- Entry (p, q) of the result block at point t sits at (512·t + p, q) of the array. -/
theorem emb6 (t : Fin cfg0.N) (p : Fin 512) (q : Fin 1024) (r : Fin 32768) (hr : r.val = t.val * 512 + p.val) :
    ((cfg0.win 6).blk t).view.emb (ix2 p q) = (ix2 r q : S32768x1024.Idx) := by
  obtain ⟨-, -, -, -, -, -, -, -, -, -, -, -, e0, e1⟩ := idx_facts t
  funext a
  apply Fin.ext
  match a with
  | ⟨0, _⟩ => show win0_6.index t 0 * 512 + 1 * p.val = r.val; rw [e0, hr]; omega
  | ⟨1, _⟩ => show win0_6.index t 1 * 1024 + 1 * q.val = q.val; rw [e1]; omega

/-- What point t writes back is block t of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S512x1024) hz, View.ld_unit_zero (S := S2x1024) hz, View.ld_unit_zero (S := S1x1024) hz]
  refine funext fun (j : S512x1024.Idx) => ?_
  obtain ⟨p, q, rfl⟩ : ∃ (p : Fin 512) (q : Fin 1024), j = ix2 p q := ⟨j 0, j 1, eq_ix2 j⟩
  have ht : t.val < 64 := lt_of_lt_of_eq t.isLt (show cfg0.N = 64 from N_0)
  have hp := p.isLt
  refine (Cert.Payload.pay_apply (iblk m c 0 t) (iblk m c 1 t) (iblk m c 2 t) (iblk m c 3 t) (iblk m c 4 t) (iblk m c 5 t) p q).trans ?_
  rw [View.read_apply, emb6 t p q ⟨t.val * 512 + p.val, by omega⟩ rfl]
  show _ = rowK _ _ _ _ _ _ _ _ q
  rw [blk0_row m c t p ⟨t.val * 512 + p.val, by omega⟩ rfl, blk1_row m c t p ⟨t.val * 512 + p.val, by omega⟩ rfl,
    blk2_row m c t 0, blk2_row m c t 1, blk3_row m c t 0, blk3_row m c t 1, blk4_row m c t 0, blk5_row m c t 0]

/-- An index of the array is in point t's block iff each coordinate is in the block's range on its axis. -/
theorem mem_blk (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4).slice (win0_6.rect t)).set ↔ _
  rw [View.set_slice_whole, Rect.mem_set_unit]
  exact Iff.rfl

/-- Every entry of the array lies in the block of the point that handles its row. -/
theorem cover (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 64 := N_0
  refine ⟨⟨(i 0).val / 512, by rw [hN]; omega⟩, flush0_6 _, ?_⟩
  obtain ⟨-, -, -, -, -, -, -, -, -, -, -, -, e0, e1⟩ := idx_facts ⟨(i 0).val / 512, by rw [hN]; omega⟩
  rw [mem_blk]
  intro a
  match a with
  | ⟨0, _⟩ =>
    show win0_6.index _ 0 * 512 ≤ (i 0).val ∧ (i 0).val < win0_6.index _ 0 * 512 + 512
    rw [e0]
    show (i 0).val / 512 * 512 ≤ (i 0).val ∧ (i 0).val < (i 0).val / 512 * 512 + 512
    omega
  | ⟨1, _⟩ =>
    show win0_6.index _ 1 * 1024 ≤ (i 1).val ∧ (i 1).val < win0_6.index _ 1 * 1024 + 1024
    rw [e1]
    omega

/-- The result array after the run is `G`. -/
theorem final (c : Dev nD) : (dats m 0 c).arrAt 6 cfg0.N = G m c :=
  (dats m 0 c).arrAt_eq_of_cover 6 (G m c) (fun t _ => flushed_eq m c t) cover

end Cert.Blocks

end
-- ==== Proof.HostSide.lean ====
/-
  The host operations around the kernel region, read at an index.

  Before the region the program lays the two [8, 4096, 1024] inputs out as [32768, 1024] matrices (row b * 4096 + t
  is token (b, t)) and the two vectors of 1024 entries as one-row matrices; after it, the [32768, 1024] result is
  laid out as an [8, 4096, 1024] array again.  A change of layout keeps the row-major position of every entry, so
  each of the five reads is an equation between positions.
-/
import proofs.«145932_j19765439496515_1_alg».proof.Proof.Gen.KernelIdeal.Frame
import Idealize.ShloMosaic.Lib.ValueIdx
import Idealize.ShloMosaic.Lib.Pipeline.Value

noncomputable section

namespace Cert.HostSide

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-! ## The layouts before the region, as whole arrays -/

/-- The first matrix the region reads is the first input in the [32768, 1024] layout. -/
theorem V_v0 (c : Dev nD) :
    (V m c main_v0 : S32768x1024.Idx → EReal)
      = shapeCast S32768x1024 (m ((c : Thread nD τ).loc main_arg0) : S8x4096x1024.Idx → EReal) shapeCasts_S8x4096x1024_S32768x1024 := by
  show StableHlo.after hostOps0 (fun b => m (c, b)) (Proc.devRef .tc main_v0) = _
  after_results
  rfl

/-- The second matrix the region reads is the second input in the [32768, 1024] layout. -/
theorem V_v1 (c : Dev nD) :
    (V m c main_v1 : S32768x1024.Idx → EReal)
      = shapeCast S32768x1024 (m ((c : Thread nD τ).loc main_arg1) : S8x4096x1024.Idx → EReal) shapeCasts_S8x4096x1024_S32768x1024 := by
  show StableHlo.after hostOps0 (fun b => m (c, b)) (Proc.devRef .tc main_v1) = _
  after_results
  rfl

/-- The scale, as a one-row matrix. -/
theorem V_v2 (c : Dev nD) :
    (V m c main_v2 : S1x1024.Idx → EReal)
      = shapeCast S1x1024 (m ((c : Thread nD τ).loc main_arg4) : S1024.Idx → EReal) shapeCasts_S1024_S1x1024 := by
  show StableHlo.after hostOps0 (fun b => m (c, b)) (Proc.devRef .tc main_v2) = _
  after_results
  rfl

/-- The shift, as a one-row matrix. -/
theorem V_v3 (c : Dev nD) :
    (V m c main_v3 : S1x1024.Idx → EReal)
      = shapeCast S1x1024 (m ((c : Thread nD τ).loc main_arg5) : S1024.Idx → EReal) shapeCasts_S1024_S1x1024 := by
  show StableHlo.after hostOps0 (fun b => m (c, b)) (Proc.devRef .tc main_v3) = _
  after_results
  rfl

/-! ## Positions -/

/-- Entry (b, t, k) of an [8, 4096, 1024] array and entry (r, k) of a [32768, 1024] matrix have the same row-major
    position when r = b * 4096 + t. -/
theorem pos_three_two (b : Fin 8) (t : Fin 4096) (k : Fin 1024) (r : Fin 32768) (hr : r.val = b.val * 4096 + t.val) :
    (S8x4096x1024.rowMajor (ix3 b t k)).val = (S32768x1024.rowMajor (ix2 r k)).val := by
  rw [Shape.rowMajor_val_three, Shape.rowMajor_val_two]
  show (b.val * 4096 + t.val) * 1024 + k.val = r.val * 1024 + k.val
  rw [hr]

/-- Entry k of a vector of 1024 entries and entry (0, k) of its one-row matrix have the same row-major position. -/
theorem pos_one_two (z : Fin 1) (k : Fin 1024) :
    (S1024.rowMajor (ix1 k)).val = (S1x1024.rowMajor (ix2 z k)).val := by
  rw [Shape.rowMajor_val_one, Shape.rowMajor_val_two]
  show k.val = z.val * 1024 + k.val
  have hz := z.isLt
  omega

/-- A change of layout from [8, 4096, 1024] to [32768, 1024], read at (r, k) with r = b * 4096 + t. -/
theorem cast_three_two (x : S8x4096x1024.Idx → EReal) (h : S8x4096x1024.ShapeCasts S32768x1024)
    (b : Fin 8) (t : Fin 4096) (k : Fin 1024) (r : Fin 32768) (hr : r.val = b.val * 4096 + t.val) :
    shapeCast S32768x1024 x h (ix2 r k) = x (ix3 b t k) :=
  shapeCast_apply x h (ix2 r k) (ix3 b t k) (pos_three_two b t k r hr)

/-- A change of layout from [32768, 1024] to [8, 4096, 1024], read at (b, t, q). -/
theorem cast_two_three (x : S32768x1024.Idx → EReal) (h : S32768x1024.ShapeCasts S8x4096x1024)
    (b : Fin 8) (t : Fin 4096) (q : Fin 1024) (r : Fin 32768) (hr : r.val = b.val * 4096 + t.val) :
    shapeCast S8x4096x1024 x h (ix3 b t q) = x (ix2 r q) :=
  shapeCast_apply x h (ix3 b t q) (ix2 r q) (pos_three_two b t q r hr).symm

/-- A vector of 1024 entries as a one-row matrix, read at (0, k). -/
theorem cast_one_two (x : S1024.Idx → EReal) (h : S1024.ShapeCasts S1x1024) (z : Fin 1) (k : Fin 1024) :
    shapeCast S1x1024 x h (ix2 z k) = x (ix1 k) :=
  shapeCast_apply x h (ix2 z k) (ix1 k) (pos_one_two z k)

/-! ## The reads before the region -/

/-- The first matrix at (b * 4096 + t, k) is the first input at (b, t, k). -/
theorem V_v0_apply (c : Dev nD) (b : Fin 8) (t : Fin 4096) (k : Fin 1024) (r : Fin 32768) (hr : r.val = b.val * 4096 + t.val) :
    (V m c main_v0 : S32768x1024.Idx → EReal) (ix2 r k) = (m ((c : Thread nD τ).loc main_arg0) : S8x4096x1024.Idx → EReal) (ix3 b t k) := by
  rw [V_v0]
  exact cast_three_two _ _ b t k r hr

/-- The second matrix at (b * 4096 + t, k) is the second input at (b, t, k). -/
theorem V_v1_apply (c : Dev nD) (b : Fin 8) (t : Fin 4096) (k : Fin 1024) (r : Fin 32768) (hr : r.val = b.val * 4096 + t.val) :
    (V m c main_v1 : S32768x1024.Idx → EReal) (ix2 r k) = (m ((c : Thread nD τ).loc main_arg1) : S8x4096x1024.Idx → EReal) (ix3 b t k) := by
  rw [V_v1]
  exact cast_three_two _ _ b t k r hr

/-- The scale's one-row matrix at (0, k) is the scale at k. -/
theorem V_v2_apply (c : Dev nD) (z : Fin 1) (k : Fin 1024) :
    (V m c main_v2 : S1x1024.Idx → EReal) (ix2 z k) = (m ((c : Thread nD τ).loc main_arg4) : S1024.Idx → EReal) (ix1 k) := by
  rw [V_v2]
  exact cast_one_two _ _ z k

/-- The shift's one-row matrix at (0, k) is the shift at k. -/
theorem V_v3_apply (c : Dev nD) (z : Fin 1) (k : Fin 1024) :
    (V m c main_v3 : S1x1024.Idx → EReal) (ix2 z k) = (m ((c : Thread nD τ).loc main_arg5) : S1024.Idx → EReal) (ix1 k) := by
  rw [V_v3]
  exact cast_one_two _ _ z k

/-! ## The read after the region -/

/-- After the region the program's result is the region's output matrix in the [8, 4096, 1024] layout: the one
    operation after the region reads the output array as the region left it. -/
theorem tail_whole (c : Dev nD) (G : S32768x1024.Idx → EReal) (hG : (dats m 0 c).arrAt 6 cfg0.N = G) :
    (Pipeline.afterTail₀ cfgs (dats m) 0 (V0 m) [hostOps1] c main_v5 : S8x4096x1024.Idx → EReal)
      = shapeCast S8x4096x1024 G shapeCasts_S32768x1024_S8x4096x1024 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4) = G :=
    (Pipeline.withArrays_arr spec0 launch0.win.arr_inj c (V0 m c) (fun w => (dats m 0 c).arrAt w cfg0.N) 6).trans hG
  rw [hw]
  rfl

/-- The program's result at (b, t, q) is the region's output matrix at (b * 4096 + t, q). -/
theorem tail_out (c : Dev nD) (G : S32768x1024.Idx → EReal) (hG : (dats m 0 c).arrAt 6 cfg0.N = G)
    (b : Fin 8) (t : Fin 4096) (q : Fin 1024) (r : Fin 32768) (hr : r.val = b.val * 4096 + t.val) :
    (Pipeline.afterTail₀ cfgs (dats m) 0 (V0 m) [hostOps1] c main_v5 : S8x4096x1024.Idx → EReal) (ix3 b t q) = G (ix2 r q) := by
  rw [tail_whole m c G hG]
  exact cast_two_three _ _ b t q r hr

end Cert.HostSide

end
-- ==== Proof.KernelRun.lean ====
/-
  The idealized kernel program's run, read: its result array holds the specification's function of the six argument arrays.

  The region finds the two token arrays laid out as 32768 rows (row 4096·b + t is token (b, t)) and the scale and the
  shift as one-row matrices; its result array holds, row by row, the token results; and the program's result is
  that array laid back out as [8, 4096, 1024].
-/
import proofs.«145932_j19765439496515_1_alg».proof.Proof.Blocks
import proofs.«145932_j19765439496515_1_alg».proof.Proof.HostSide

set_option maxRecDepth 16384

noncomputable section

open Idealize.ShloMosaic Idealize.ShloMosaic.TcCoe Idealize.SL.Sem Idealize.ShloMosaic.ValueIdx
open Idealize.ShloMosaic.Pipeline (Dat)

namespace Cert.KernelRun

open Cert.KernelIdeal Cert.KernelIdeal.Gen Cert.Spec

variable (m : (ℓ : Loc nD τ sig) → Buf (Elt Ideal) ℓ) (ρ : Dev nD → PrngReg)

/-- The result over the six argument arrays. -/
abbrev result (c : Dev nD) : S8x4096x1024.Idx → EReal :=
  outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Row 4096·b + t of the region's result array is token (b, t)'s result. -/
theorem G_apply (c : Dev nD) (b : Fin 8) (t : Fin 4096) (q : Fin 1024) (r : Fin 32768) (hr : r.val = b.val * 4096 + t.val) :
    Cert.Blocks.G m c (ix2 r q) = result m c (ix3 b t q) := by
  have h0 : row2 (V m c main_v0 : S32768x1024.Idx → EReal) r = row3 (m ((c : Thread nD τ).loc main_arg0)) b t :=
    funext fun k => Cert.HostSide.V_v0_apply m c b t k r hr
  have h1 : row2 (V m c main_v1 : S32768x1024.Idx → EReal) r = row3 (m ((c : Thread nD τ).loc main_arg1)) b t :=
    funext fun k => Cert.HostSide.V_v1_apply m c b t k r hr
  have h4 : row2 (V m c main_v2 : S1x1024.Idx → EReal) 0 = row1 (m ((c : Thread nD τ).loc main_arg4)) :=
    funext fun k => Cert.HostSide.V_v2_apply m c 0 k
  have h5 : row2 (V m c main_v3 : S1x1024.Idx → EReal) 0 = row1 (m ((c : Thread nD τ).loc main_arg5)) :=
    funext fun k => Cert.HostSide.V_v3_apply m c 0 k
  show rowK (row2 _ r) (row2 _ r) _ _ _ _ _ _ q = rowK (row3 _ b t) (row3 _ b t) _ _ _ _ _ _ q
  rw [h0, h1, h4, h5, V_main_arg2, V_main_arg3]

/-- The program's result after the host operation that follows the region. -/
theorem result_eq (c : Dev nD) :
    (Pipeline.afterTail₀ cfgs (dats m) 0 (V0 m) [hostOps1] c main_v5 : S8x4096x1024.Idx → EReal) = result m c := by
  funext i
  obtain ⟨b, t, q, rfl⟩ : ∃ (b : Fin 8) (t : Fin 4096) (q : Fin 1024), i = ix3 b t q := ⟨i 0, i 1, i 2, eq_ix3 i⟩
  have hb := b.isLt
  have ht := t.isLt
  rw [Cert.HostSide.tail_out m c (Cert.Blocks.G m c) (Cert.Blocks.final m c) b t q ⟨b.val * 4096 + t.val, by omega⟩ rfl,
    G_apply m c b t q ⟨b.val * 4096 + t.val, by omega⟩ rfl]

/-- Every weakly fair execution ends with the result array at `result` and the six arguments as launched. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.lean ====
/-
  The certificate of a gated fusion of two token streams followed by a layer normalisation.

  For each of the 8 × 4096 tokens, with rows a, b of 1024 entries: two gate logits  Σ a·u + Σ b·v  against two pairs of
  weight rows, each gate the logistic function of its logit, the fused row the gated sum of a and b, and the result the
  layer normalisation of the fused row over its 1024 entries, scaled and shifted entry by entry.

  The kernel handles the tokens 512 at a time over the arrays laid out as 32768 rows, takes each logit as a lane sum of
  products, the gate as the logistic function, and the fused row as  (1 + s0)·a + (1 + s1)·b.  The reference takes the
  logits as two contractions, the gate as  1 / (1 + e^(-l)),  and the fused row as  ((a + b) + s0·a) + s1·b.  Over the
  extended reals a sum is the same in any order and grouping of its terms' evaluation, the two spellings of the gate are one
  function, and the gate is a real number for every logit; so on finite inputs the two fused rows agree by the
  distributive law, and everything after them is the same function of the fused row on both sides.

  The three frames are the generated ones (the reference's is its generated run with the result dropped); the idealization
  rewrote nothing, so the kernel's idealized text is its own; the value claim joins the kernel's run read through its
  blocks with the reference's run read one operation at a time.
-/
import proofs.«145932_j19765439496515_1_alg».proof.Defs
import proofs.«145932_j19765439496515_1_alg».proof.Proof.Gen.Kernel
import proofs.«145932_j19765439496515_1_alg».proof.Proof.Gen.Kernel.Skeleton
import proofs.«145932_j19765439496515_1_alg».proof.Proof.Gen.Kernel.Launch
import proofs.«145932_j19765439496515_1_alg».proof.Proof.Gen.Kernel.Points
import proofs.«145932_j19765439496515_1_alg».proof.Proof.Gen.Kernel.Frame
import proofs.«145932_j19765439496515_1_alg».proof.Proof.Gen.KernelIdeal
import proofs.«145932_j19765439496515_1_alg».proof.Proof.Gen.KernelIdeal.Skeleton
import proofs.«145932_j19765439496515_1_alg».proof.Proof.Gen.KernelIdeal.Launch
import proofs.«145932_j19765439496515_1_alg».proof.Proof.Gen.KernelIdeal.Points
import proofs.«145932_j19765439496515_1_alg».proof.Proof.Gen.KernelIdeal.Frame
import proofs.«145932_j19765439496515_1_alg».proof.Proof.Gen.ReferenceIdeal
import proofs.«145932_j19765439496515_1_alg».proof.Proof.Gen.Pre_finite_inputs
import proofs.«145932_j19765439496515_1_alg».proof.Proof.Gen.ReferenceIdeal.Run
import proofs.«145932_j19765439496515_1_alg».proof.Proof.Gen.ReferenceIdeal.Read
import proofs.«145932_j19765439496515_1_alg».proof.Proof.Spec
import proofs.«145932_j19765439496515_1_alg».proof.Proof.Finite
import proofs.«145932_j19765439496515_1_alg».proof.Proof.RefSide
import proofs.«145932_j19765439496515_1_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the two programs end with the same result: the kernel's is the first spelling of the token function,
    the reference's the second, and on real rows the two spellings agree. -/
theorem algebraic : Cert.algebraic_KernelIdeal_ReferenceIdeal := by
  intro m ρ m' ρ' hpre hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.Finite.real_of_pre _ _ _ _ _ _ (hpre c)
  rw [Cert.ReferenceIdeal.Read.val_main_v41_eq, Cert.RefSide.ref_eq, (hagree c).1, (hagree c).2.1, (hagree c).2.2.1,
    (hagree c).2.2.2.1, (hagree c).2.2.2.2.1, (hagree c).2.2.2.2.2]
  exact Cert.Spec.out_eq _ _ _ _ _ _ h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
